-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S16x1024 : Shape := ⟨2, ![16, 1024]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x1024x768 .f32) (main_arg1 : FVec F S16x1024x768 .f32) (main_arg2 : FVec F S16x1024 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S16x1024x768 : Shape := ⟨3, ![16, 1024, 768]⟩
abbrev S16x1024 : Shape := ⟨2, ![16, 1024]⟩
abbrev S16x1024x1 : Shape := ⟨3, ![16, 1024, 1]⟩
abbrev S16x768x768 : Shape := ⟨3, ![16, 768, 768]⟩
abbrev S1x1024x384 : Shape := ⟨3, ![1, 1024, 384]⟩
abbrev S1x1024x1 : Shape := ⟨3, ![1, 1024, 1]⟩
abbrev S1x384x384 : Shape := ⟨3, ![1, 384, 384]⟩
abbrev S1024x384 : Shape := ⟨2, ![1024, 384]⟩
abbrev S1024x1 : Shape := ⟨2, ![1024, 1]⟩
abbrev S384x1024 : Shape := ⟨2, ![384, 1024]⟩
abbrev S384x384 : Shape := ⟨2, ![384, 384]⟩

abbrev nBuf : Space → Nat
  | .hbm => 6
  | .vmem => 14
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024, .f32⟩
  | .hbm, ⟨3, _⟩ => ⟨S16x1024x1, .f32⟩
  | .hbm, ⟨4, _⟩ => ⟨S16x768x768, .f32⟩
  | .hbm, ⟨5, _⟩ => ⟨S16x768x768, .f32⟩
  | .local _ .vmem, ⟨0, _⟩ => ⟨S1x1024x384, .f32⟩
  | .local _ .vmem, ⟨1, _⟩ => ⟨S1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S1x1024x1, .f32⟩
  | .local _ .vmem, ⟨9, _⟩ => ⟨S1x1024x1, .f32⟩
  | .local _ .vmem, ⟨10, _⟩ => ⟨S1x384x384, .f32⟩
  | .local _ .vmem, ⟨11, _⟩ => ⟨S1x384x384, .f32⟩
  | .local _ .vmem, ⟨12, _⟩ => ⟨S1x384x384, .f32⟩
  | .local _ .vmem, ⟨13, _⟩ => ⟨S1x384x384, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x384x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S16x1024_S16x1024x1_0_1 : S16x1024.BroadcastsInDim S16x1024x1 (![0, 1] : Fin 2 → Fin S16x1024x1.rank)
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x384 : S1024x1.Broadcasts S1024x384
  bitsLt_bf16_f32 : FTy.bits .bf16 < FTy.bits .f32
  transposes_S1024x384_p1_0_S384x1024 : S1024x384.Transposes [1, 0] S384x1024
  inb_S1x384x384_S1x384x384_0_0_0 : ∀ a, (![0, 0, 0] : Fin 3 → Nat) a + S1x384x384.size a ≤ S1x384x384.size a
  h_S1x384x384 : 0 < S1x384x384.numel
  shapeCasts_S1x384x384_S384x384 : S1x384x384.ShapeCasts S384x384
  shapeCasts_S384x384_S1x384x384 : S384x384.ShapeCasts S1x384x384
  dot_S384x1024_S1024x384_S384x384_1_0_0_1_n_n_wf : DotDims.WF S384x1024 S1024x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x384.size a ≤ S16x1024x768.size a
  hwx0_0 : ∀ i : grid0.Coords, EltTy.bits .f32 = 32 ∨ (Rect.block (s := S16x1024x768) S1x1024x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x384.size a ≤ S16x1024x768.size a
  hwx0_1 : ∀ i : grid0.Coords, EltTy.bits .f32 = 32 ∨ (Rect.block (s := S16x1024x768) S1x1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x384.size a ≤ S16x1024x768.size a
  hwx0_2 : ∀ i : grid0.Coords, EltTy.bits .f32 = 32 ∨ (Rect.block (s := S16x1024x768) S1x1024x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x384.size a ≤ S16x1024x768.size a
  hwx0_3 : ∀ i : grid0.Coords, EltTy.bits .f32 = 32 ∨ (Rect.block (s := S16x1024x768) S1x1024x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S16x1024x1.size a
  hwx0_4 : ∀ i : grid0.Coords, EltTy.bits .f32 = 32 ∨ (Rect.block (s := S16x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x384x384.size a ≤ S16x768x768.size a
  hwx0_5 : ∀ i : grid0.Coords, EltTy.bits .f32 = 32 ∨ (Rect.block (s := S16x768x768) S1x384x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x384x384.size a ≤ S16x768x768.size a
  hwx0_6 : ∀ i : grid0.Coords, EltTy.bits .f32 = 32 ∨ (Rect.block (s := S16x768x768) S1x384x384.size (cc0_transform_6 i) (hinb0_6 i)).WholeWords (EltTy.packing .f32)

variable [Facts₀]

def dot_S384x1024_S1024x384_S384x384_1_0_0_1_n_n : DotDims S384x1024 S1024x384 S384x384 where
  lhsContracting := [1]
  rhsContracting := [0]
  lhsNonContracting := [0]
  rhsNonContracting := [1]
  lhsBatch := []
  rhsBatch := []
  wf := dot_S384x1024_S1024x384_S384x384_1_0_0_1_n_n_wf

abbrev win0_0 : Pipeline.Window sig grid0 :=
  Pipeline.Window.ofSpec (Memref.whole main_arg0) S1x1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x384x384.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x384x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S16x1024 : Shape := ⟨2, ![16, 1024]⟩
abbrev S16x1024x1 : Shape := ⟨3, ![16, 1024, 1]⟩
abbrev S16x768x768 : Shape := ⟨3, ![16, 768, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S16x1024, .f32⟩
  | .hbm, ⟨3, _⟩ => ⟨S16x1024x1, .f32⟩
  | .hbm, ⟨4, _⟩ => ⟨S16x1024x768, .f32⟩
  | .hbm, ⟨5, _⟩ => ⟨S16x1024x768, .f32⟩
  | .hbm, ⟨6, _⟩ => ⟨S16x1024x1, .f32⟩
  | .hbm, ⟨7, _⟩ => ⟨S16x1024x768, .f32⟩
  | .hbm, ⟨8, _⟩ => ⟨S16x1024x768, .f32⟩
  | .hbm, ⟨9, _⟩ => ⟨S16x768x768, .f32⟩
  | .hbm, ⟨10, _⟩ => ⟨S16x768x768, .f32⟩
  | .hbm, ⟨11, _⟩ => ⟨S16x768x768, .f32⟩
  | .hbm, ⟨12, _⟩ => ⟨S16x768x768, .f32⟩
  | .hbm, ⟨13, _⟩ => ⟨S16x768x768, .f32⟩
  | .hbm, ⟨14, _⟩ => ⟨S16x768x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S16x1024x1_S16x1024x768_0_1_2 : S16x1024x1.BroadcastsInDim S16x1024x768 (![0, 1, 2] : Fin 3 → Fin S16x1024x768.rank)
  dot_S16x1024x768_S16x1024x768_S16x768x768_1_1_2_2_0_0_wf : DotDims.WF S16x1024x768 S16x1024x768 S16x768x768 [1] [1] [2] [2] [0] [0]

variable [Facts₀]

def dot_S16x1024x768_S16x1024x768_S16x768x768_1_1_2_2_0_0 : DotDims S16x1024x768 S16x1024x768 S16x768x768 where
  lhsContracting := [1]
  rhsContracting := [1]
  lhsNonContracting := [2]
  rhsNonContracting := [2]
  lhsBatch := [0]
  rhsBatch := [0]
  wf := dot_S16x1024x768_S16x1024x768_S16x768x768_1_1_2_2_0_0_wf

class Facts : Prop extends Facts₀ where

variable [Facts]
-- ==== Proof.Mixture.lean ====
/-
  The weighted mixture of outer products that both programs compute, index by index on the extended reals.

  For a batch `b` the inputs are a real part `re[b]` and an imaginary part `im[b]`, each a 1024 × 768 matrix
  whose row `s` is a vector `φ_s = re[b,s,·] + i·im[b,s,·]`, and a weight `w[b,s]` per row.  The result is the
  complex matrix `ρ[b] = Σ_s w[b,s] · φ_s ⊗ conj(φ_s)`, returned as its real and imaginary parts:

    Re ρ[b,p,q] = Σ_s (w[b,s]·re[b,s,p])·re[b,s,q] + Σ_s (w[b,s]·im[b,s,p])·im[b,s,q]
    Im ρ[b,p,q] = Σ_s (w[b,s]·im[b,s,p])·re[b,s,q] − Σ_s (w[b,s]·re[b,s,p])·im[b,s,q]

  Each of the four sums is one weighted Gram sum `gram`; the factor order inside a term is the order both
  programs multiply in, so no law of the extended reals is needed to join them.
-/
import Idealize.ShloMosaic.PureOps.Ideal
import Idealize.ShloMosaic.Lib.ValueIdx

noncomputable section

namespace Cert.Mixture

open Idealize.ShloMosaic Idealize.ShloMosaic.ValueIdx

/-- The shape of the two input parts: 16 batches of 1024 rows of 768 entries. -/
abbrev SPart : Shape := ⟨3, ![16, 1024, 768]⟩
/-- The shape of the weights: one per batch and row. -/
abbrev SWeight : Shape := ⟨2, ![16, 1024]⟩
/-- The shape of each result part: 16 batches of a 768 × 768 matrix. -/
abbrev SOut : Shape := ⟨3, ![16, 768, 768]⟩

/-- The weighted Gram sum of columns `p` of `x` and `q` of `y` in batch `b`: `Σ_s (w[b,s]·x[b,s,p])·y[b,s,q]`. -/
def gram (w : SWeight.Idx → EReal) (x y : SPart.Idx → EReal) (b : Fin 16) (p q : Fin 768) : EReal :=
  ∑ s : Fin 1024, (w (ix2 b s) * x (ix3 b s p)) * y (ix3 b s q)

/-- The real part of the mixture. -/
def outRe (re im : SPart.Idx → EReal) (w : SWeight.Idx → EReal) : SOut.Idx → EReal :=
  fun i => gram w re re (i 0) (i 1) (i 2) + gram w im im (i 0) (i 1) (i 2)

/-- The imaginary part of the mixture. -/
def outIm (re im : SPart.Idx → EReal) (w : SWeight.Idx → EReal) : SOut.Idx → EReal :=
  fun i => gram w im re (i 0) (i 1) (i 2) - gram w re im (i 0) (i 1) (i 2)

end Cert.Mixture

end
-- ==== Proof.FrameBits.lean ====
/-
  The frame of the mixture kernel, and what its two result arrays hold after the run.

  One pallas_call on the grid 16 × 2 × 2.  At the point (b, i, j) the body is handed five input blocks — columns
  [384 i, 384 i + 384) of the real and of the imaginary part of batch b (windows 0 and 1), columns [384 j, 384 j + 384)
  of the same two arrays (windows 2 and 3), and the weights of batch b as a column (window 4) — and writes block
  (b, i, j) of each of the two results (windows 5 and 6).  Windows 0 and 2 read ONE array, the real part, and windows 1
  and 3 read ONE array, the imaginary part.  So the buffers behind the windows are five, not seven, and each of the two
  shared arrays is held by its two windows at complementary halves of its share: an input window only reads, and a
  half share is enough to read.  The two results are each behind one window and are held whole.

  The body reads five blocks, computes, and overwrites the two result blocks whole; nothing is carried from point to
  point, so after the body each input buffer still holds its block and each result buffer holds a pure function of the
  five input blocks.  The run then leaves every argument array as launched, and each result array at the blocks the
  points wrote back.
-/
import proofs.«171447_j54906861912216_1_alg».proof.Proof.Gen.Kernel.Launch
import proofs.«171447_j54906861912216_1_alg».proof.Proof.Gen.Kernel.Skeleton
import proofs.«171447_j54906861912216_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation that lays the
    weights out as columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the column layout of the weights: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: where it is not fetched
    the block index has not moved and the body left the block in place.  One statement per input window: the block's
    index type reduces only at a literal window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole of an input block, of the weight column, of a result block. -/
abbrev rIn : Rect S1x1024x384 := Rect.unit (s := S1x1024x384) ![0, 0, 0] S1x1024x384.size inb_S1x1024x384_S1x1024x384_0_0_0
abbrev rW : Rect S1x1024x1 := Rect.unit (s := S1x1024x1) ![0, 0, 0] S1x1024x1.size inb_S1x1024x1_S1x1024x1_0_0_0
abbrev rOut : Rect S1x384x384 := Rect.unit (s := S1x384x384) ![0, 0, 0] S1x384x384.size inb_S1x384x384_S1x384x384_0_0_0

/-- The real-part result buffer after the body: its one store, of the first payload, over the five input blocks. -/
def outRe (x0 x1 x2 x3 : Vec F S1x1024x384 .f32) (x4 : Vec F S1x1024x1 .f32) : Vec F S1x384x384 .f32 :=
  View.canon [⟨rOut, k0_pay8 (View.ld x0 rIn) (View.ld x1 rIn) (View.ld x2 rIn) (View.ld x3 rIn) (View.ld x4 rW)⟩]

/-- The imaginary-part result buffer after the body. -/
def outIm (x0 x1 x2 x3 : Vec F S1x1024x384 .f32) (x4 : Vec F S1x1024x1 .f32) : Vec F S1x384x384 .f32 :=
  View.canon [⟨rOut, k0_pay1 (k0_pay7 (View.ld x0 rIn) (View.ld x1 rIn) (View.ld x2 rIn) (View.ld x3 rIn) (View.ld x4 rW))⟩]

/-- The one store covers the buffer. -/
theorem coverOut (p0 : Vec F S1x384x384 .f32) (y : S1x384x384.Idx) :
    ∃ pc ∈ ([⟨rOut, p0⟩] : List (View.Piece (Elt F) S1x384x384 .f32)), y ∈ pc.1.set :=
  View.cover_of_tiled [⟨rOut, p0⟩] S1x384x384.size (by rfl) y

/-! ## The body's triple -/

set_option maxHeartbeats 2000000 in
/-- The body on whole staging memrefs, the five inputs' at contents `xW` and the two results' at anything, runs to the
    continuation holding the inputs' as they were and the results' at `outRe` / `outIm` of the inputs. -/
theorem sound_kernel (c : Dev nD) (E : Set ℕ) (i : grid0.Coords)
    (arg3 : Memref sig .tc .vmem S1x1024x384 .f32) (harg3 : arg3.IsWhole) (arg4 : Memref sig .tc .vmem S1x1024x384 .f32) (harg4 : arg4.IsWhole)
    (arg5 : Memref sig .tc .vmem S1x1024x384 .f32) (harg5 : arg5.IsWhole) (arg6 : Memref sig .tc .vmem S1x1024x384 .f32) (harg6 : arg6.IsWhole)
    (arg7 : Memref sig .tc .vmem S1x1024x1 .f32) (harg7 : arg7.IsWhole)
    (arg8 : Memref sig .tc .vmem S1x384x384 .f32) (harg8 : arg8.IsWhole) (arg9 : Memref sig .tc .vmem S1x384x384 .f32) (harg9 : arg9.IsWhole)
    (x0 x1 x2 x3 : Vec F S1x1024x384 .f32) (x4 : Vec F S1x1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outRe x0 x1 x2 x3 x4) ∗ owns (c : Thread nD τ) arg9 fullShare (outIm x0 x1 x2 x3 x4)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverOut _)
  iexists _; isplitr
  swap; · iexact H6
  ipureintro
  try dsimp only
  exact View.read_writes_eq_canon _ _ _ (coverOut _)

/-! ## The proof data -/

/-- The proof data of the pipeline on core `c`.  The arrays as the region finds them; after the body each input
    buffer at its block and each result buffer at its function of the five input blocks; the invariant the core's
    scoped buffers that are no staging buffer (there are none: the body has no scratch); nothing owed.  The two
    windows on the real part hold the two halves of its share, and so the two on the imaginary part. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRe (iblk m c 0 t) (iblk m c 1 t) (iblk m c 2 t) (iblk m c 3 t) (iblk m c 4 t)
    | ⟨6, _⟩ => outIm (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outRe (iblk m c 0 t) (iblk m c 1 t) (iblk m c 2 t) (iblk m c 3 t) (iblk m c 4 t) := by dsimp only [dats]
theorem after0_6 (c : Dev nD) (t : Fin cfg0.N) : (dats m 0 c).after 6 t = outIm (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The shared arrays dealt among their windows -/

/-- The five buffers behind the seven windows, each whole at the full share as the region finds it, make the proof
    data's arrays at entry: the real part's full share is its left half for window 0 and its right half for window 2,
    the imaginary part's likewise for windows 1 and 3, and the other three are each behind one window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_W0]
  rw [bigSep_eq_bigSepL_of_eq [main_arg0, main_arg1, main_v0, main_v1_0, main_v1_1] (by decide) (by decide)]
  simp only [View.set_whole]
  show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)
      ∗ (((c.tc : Thread nD τ).loc main_v1_0) ↦{fullShare} V m c main_v1_0)
      ∗ (((c.tc : Thread nD τ).loc main_v1_1) ↦{fullShare} V m c main_v1_1)) ⊢ iprop((((c.tc : Thread nD τ).loc main_arg0) ↦{fullShare.left} V m c main_arg0)
      ∗ (((c.tc : Thread nD τ).loc main_arg1) ↦{fullShare.left} V m c main_arg1)
      ∗ (((c.tc : Thread nD τ).loc main_arg0) ↦{fullShare.right} V m c main_arg0)
      ∗ (((c.tc : Thread nD τ).loc main_arg1) ↦{fullShare.right} V m c main_arg1)
      ∗ (((c.tc : Thread nD τ).loc main_v0) ↦{fullShare} V m c main_v0)
      ∗ (((c.tc : Thread nD τ).loc main_v1_0) ↦{fullShare} V m c main_v1_0)
      ∗ (((c.tc : Thread nD τ).loc main_v1_1) ↦{fullShare} V m c main_v1_1))
  iintro ⟨Hre, Him, Hw, Ho0, Ho1⟩
  ihave Hre2 := (pointsTo_share (PosShare.mem_left_op_right fullShare)).1 $$ Hre
  icases Hre2 with ⟨Hrel, Hrer⟩
  ihave Him2 := (pointsTo_share (PosShare.mem_left_op_right fullShare)).1 $$ Him
  icases Him2 with ⟨Himl, Himr⟩
  isplitl [Hrel]; · iexact Hrel
  isplitl [Himl]; · iexact Himl
  isplitl [Hrer]; · iexact Hrer
  isplitl [Himr]; · iexact Himr
  isplitl [Hw]; · iexact Hw
  isplitl [Ho0]; · iexact Ho0
  iexact Ho1

/-! ## The run -/

/-- What the run leaves: every window's array at what the library computes from the proof data, and the one buffer no
    window stages — the weights as launched — as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

/-- From any memory with zero counters every weakly fair execution of @main terminates, faulting nowhere, in
    `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      iexact H)
    (hin := fun c => by
      dsimp only [dats]
      iintro ⟨-, H⟩
      iexact H)
    (hout := fun c => by
      dsimp only [dats]
      iintro H
      isplitr
      · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

end Cert.Kernel.Shared

end
-- ==== Proof.FrameIdeal.lean ====
/-
  The frame of the mixture kernel, and what its two result arrays hold after the run.

  One pallas_call on the grid 16 × 2 × 2.  At the point (b, i, j) the body is handed five input blocks — columns
  [384 i, 384 i + 384) of the real and of the imaginary part of batch b (windows 0 and 1), columns [384 j, 384 j + 384)
  of the same two arrays (windows 2 and 3), and the weights of batch b as a column (window 4) — and writes block
  (b, i, j) of each of the two results (windows 5 and 6).  Windows 0 and 2 read ONE array, the real part, and windows 1
  and 3 read ONE array, the imaginary part.  So the buffers behind the windows are five, not seven, and each of the two
  shared arrays is held by its two windows at complementary halves of its share: an input window only reads, and a
  half share is enough to read.  The two results are each behind one window and are held whole.

  The body reads five blocks, computes, and overwrites the two result blocks whole; nothing is carried from point to
  point, so after the body each input buffer still holds its block and each result buffer holds a pure function of the
  five input blocks.  The run then leaves every argument array as launched, and each result array at the blocks the
  points wrote back.
-/
import proofs.«171447_j54906861912216_1_alg».proof.Proof.Gen.KernelIdeal.Launch
import proofs.«171447_j54906861912216_1_alg».proof.Proof.Gen.KernelIdeal.Skeleton
import proofs.«171447_j54906861912216_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation that lays the
    weights out as columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the column layout of the weights: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not: where it is not fetched
    the block index has not moved and the body left the block in place.  One statement per input window: the block's
    index type reduces only at a literal window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result buffers -/

/-- The whole of an input block, of the weight column, of a result block. -/
abbrev rIn : Rect S1x1024x384 := Rect.unit (s := S1x1024x384) ![0, 0, 0] S1x1024x384.size inb_S1x1024x384_S1x1024x384_0_0_0
abbrev rW : Rect S1x1024x1 := Rect.unit (s := S1x1024x1) ![0, 0, 0] S1x1024x1.size inb_S1x1024x1_S1x1024x1_0_0_0
abbrev rOut : Rect S1x384x384 := Rect.unit (s := S1x384x384) ![0, 0, 0] S1x384x384.size inb_S1x384x384_S1x384x384_0_0_0

/-- The real-part result buffer after the body: its one store, of the first payload, over the five input blocks. -/
def outRe (x0 x1 x2 x3 : Vec F S1x1024x384 .f32) (x4 : Vec F S1x1024x1 .f32) : Vec F S1x384x384 .f32 :=
  View.canon [⟨rOut, k0_pay8 (View.ld x0 rIn) (View.ld x1 rIn) (View.ld x2 rIn) (View.ld x3 rIn) (View.ld x4 rW)⟩]

/-- The imaginary-part result buffer after the body. -/
def outIm (x0 x1 x2 x3 : Vec F S1x1024x384 .f32) (x4 : Vec F S1x1024x1 .f32) : Vec F S1x384x384 .f32 :=
  View.canon [⟨rOut, k0_pay1 (k0_pay7 (View.ld x0 rIn) (View.ld x1 rIn) (View.ld x2 rIn) (View.ld x3 rIn) (View.ld x4 rW))⟩]

/-- The one store covers the buffer. -/
theorem coverOut (p0 : Vec F S1x384x384 .f32) (y : S1x384x384.Idx) :
    ∃ pc ∈ ([⟨rOut, p0⟩] : List (View.Piece (Elt F) S1x384x384 .f32)), y ∈ pc.1.set :=
  View.cover_of_tiled [⟨rOut, p0⟩] S1x384x384.size (by rfl) y

/-! ## The body's triple -/

set_option maxHeartbeats 2000000 in
/-- The body on whole staging memrefs, the five inputs' at contents `xW` and the two results' at anything, runs to the
    continuation holding the inputs' as they were and the results' at `outRe` / `outIm` of the inputs. -/
theorem sound_kernel (c : Dev nD) (E : Set ℕ) (i : grid0.Coords)
    (arg3 : Memref sig .tc .vmem S1x1024x384 .f32) (harg3 : arg3.IsWhole) (arg4 : Memref sig .tc .vmem S1x1024x384 .f32) (harg4 : arg4.IsWhole)
    (arg5 : Memref sig .tc .vmem S1x1024x384 .f32) (harg5 : arg5.IsWhole) (arg6 : Memref sig .tc .vmem S1x1024x384 .f32) (harg6 : arg6.IsWhole)
    (arg7 : Memref sig .tc .vmem S1x1024x1 .f32) (harg7 : arg7.IsWhole)
    (arg8 : Memref sig .tc .vmem S1x384x384 .f32) (harg8 : arg8.IsWhole) (arg9 : Memref sig .tc .vmem S1x384x384 .f32) (harg9 : arg9.IsWhole)
    (x0 x1 x2 x3 : Vec F S1x1024x384 .f32) (x4 : Vec F S1x1024x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outRe x0 x1 x2 x3 x4) ∗ owns (c : Thread nD τ) arg9 fullShare (outIm x0 x1 x2 x3 x4)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (coverOut _)
  iexists _; isplitr
  swap; · iexact H6
  ipureintro
  try dsimp only
  exact View.read_writes_eq_canon _ _ _ (coverOut _)

/-! ## The proof data -/

/-- The proof data of the pipeline on core `c`.  The arrays as the region finds them; after the body each input
    buffer at its block and each result buffer at its function of the five input blocks; the invariant the core's
    scoped buffers that are no staging buffer (there are none: the body has no scratch); nothing owed.  The two
    windows on the real part hold the two halves of its share, and so the two on the imaginary part. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outRe (iblk m c 0 t) (iblk m c 1 t) (iblk m c 2 t) (iblk m c 3 t) (iblk m c 4 t)
    | ⟨6, _⟩ => outIm (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outRe (iblk m c 0 t) (iblk m c 1 t) (iblk m c 2 t) (iblk m c 3 t) (iblk m c 4 t) := by dsimp only [dats]
theorem after0_6 (c : Dev nD) (t : Fin cfg0.N) : (dats m 0 c).after 6 t = outIm (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The shared arrays dealt among their windows -/

/-- The five buffers behind the seven windows, each whole at the full share as the region finds it, make the proof
    data's arrays at entry: the real part's full share is its left half for window 0 and its right half for window 2,
    the imaginary part's likewise for windows 1 and 3, and the other three are each behind one window. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_W0]
  rw [bigSep_eq_bigSepL_of_eq [main_arg0, main_arg1, main_v0, main_v1_0, main_v1_1] (by decide) (by decide)]
  simp only [View.set_whole]
  show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)
      ∗ (((c.tc : Thread nD τ).loc main_v1_0) ↦{fullShare} V m c main_v1_0)
      ∗ (((c.tc : Thread nD τ).loc main_v1_1) ↦{fullShare} V m c main_v1_1)) ⊢ iprop((((c.tc : Thread nD τ).loc main_arg0) ↦{fullShare.left} V m c main_arg0)
      ∗ (((c.tc : Thread nD τ).loc main_arg1) ↦{fullShare.left} V m c main_arg1)
      ∗ (((c.tc : Thread nD τ).loc main_arg0) ↦{fullShare.right} V m c main_arg0)
      ∗ (((c.tc : Thread nD τ).loc main_arg1) ↦{fullShare.right} V m c main_arg1)
      ∗ (((c.tc : Thread nD τ).loc main_v0) ↦{fullShare} V m c main_v0)
      ∗ (((c.tc : Thread nD τ).loc main_v1_0) ↦{fullShare} V m c main_v1_0)
      ∗ (((c.tc : Thread nD τ).loc main_v1_1) ↦{fullShare} V m c main_v1_1))
  iintro ⟨Hre, Him, Hw, Ho0, Ho1⟩
  ihave Hre2 := (pointsTo_share (PosShare.mem_left_op_right fullShare)).1 $$ Hre
  icases Hre2 with ⟨Hrel, Hrer⟩
  ihave Him2 := (pointsTo_share (PosShare.mem_left_op_right fullShare)).1 $$ Him
  icases Him2 with ⟨Himl, Himr⟩
  isplitl [Hrel]; · iexact Hrel
  isplitl [Himl]; · iexact Himl
  isplitl [Hrer]; · iexact Hrer
  isplitl [Himr]; · iexact Himr
  isplitl [Hw]; · iexact Hw
  isplitl [Ho0]; · iexact Ho0
  iexact Ho1

/-! ## The run -/

/-- What the run leaves: every window's array at what the library computes from the proof data, and the one buffer no
    window stages — the weights as launched — as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

/-- From any memory with zero counters every weakly fair execution of @main terminates, faulting nowhere, in
    `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      iexact H)
    (hin := fun c => by
      dsimp only [dats]
      iintro ⟨-, H⟩
      iexact H)
    (hout := fun c => by
      dsimp only [dats]
      iintro H
      isplitr
      · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

end Cert.KernelIdeal.Shared

end
-- ==== Proof.PayloadIdeal.lean ====
import proofs.«171447_j54906861912216_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-! # The body's two stored values at an index, as plain sums

One run of the body sees five blocks: the real and imaginary parts restricted to a block of columns
on the left (`v0`, `v2` : [1,1024,384]) and on the right (`v4`, `v6`), and the weights column
(`v8` : [1,1024,1]). Over the extended reals every change of float format is the identity and a
product into the zero accumulator is the plain sum, so the two stored blocks are, at row `p` and
column `q`,

  first  = Σ_s (w s · re s p) · re' s q + Σ_s (w s · im s p) · im' s q
  second = Σ_s (w s · im s p) · re' s q − Σ_s (w s · re s p) · im' s q

with `s` ranging over the 1024 samples. No law of arithmetic is used: each layout operation is
read at an index (dropping or adding the leading unit axis, spreading the weights column along the
lanes, transposing the weighted block so that the sample axis is contracted), and the contraction's
one-axis index set is identified with `Fin 1024`. -/

noncomputable section

namespace Cert.KernelIdeal.Payload

open Cert.KernelIdeal Cert.KernelIdeal.Gen Idealize.ShloMosaic Idealize.ShloMosaic.TcCoe Idealize.ShloMosaic.ValueIdx

/-! ## The factors of the products -/

/-- The weights column as a [1024,1] matrix: row `s` holds the weight of sample `s`. -/
theorem pay2_apply (v8 : Vec Ideal S1x1024x1 .f32) (s : Fin 1024) :
    k0_pay2 (F := Ideal) v8 (ix2 s (0 : Fin 1)) = v8 (ix3 (0 : Fin 1) s (0 : Fin 1)) := by
  unfold k0_pay2
  exact shapeCast_1ab_ab_apply v8 shapeCasts_S1x1024x1_S1024x1 s (0 : Fin 1)

/-- The weights column spread along the 384 lanes: every entry of row `s` is the weight of sample `s`. -/
theorem weights_lanes_apply (v8 : Vec Ideal S1x1024x1 .f32) (s : Fin 1024) (p : Fin 384) :
    broadcastTo S1024x384 (k0_pay2 (F := Ideal) v8) broadcasts_S1024x1_S1024x384 (ix2 s p)
      = v8 (ix3 (0 : Fin 1) s (0 : Fin 1)) := by
  refine (broadcastTo_apply (k0_pay2 (F := Ideal) v8) broadcasts_S1024x1_S1024x384 (ix2 s p) (ix2 s (0 : Fin 1))
    (fun a => match a with
      | ⟨0, _⟩ => by show s.val = if (1024 : Nat) = 1 then 0 else s.val; rw [if_neg (by decide)]
      | ⟨1, _⟩ => by show 0 = if (1 : Nat) = 1 then 0 else p.val; rw [if_pos rfl])).trans ?_
  exact pay2_apply v8 s

/-- A [1,1024,384] block with its unit axis dropped reads the block at `(0, s, p)`. -/
theorem block_apply (v : Vec Ideal S1x1024x384 .f32) (s : Fin 1024) (p : Fin 384) :
    shapeCast S1024x384 v shapeCasts_S1x1024x384_S1024x384 (ix2 s p) = v (ix3 (0 : Fin 1) s p) :=
  shapeCast_1ab_ab_apply v shapeCasts_S1x1024x384_S1024x384 s p

/-- The weighted real part: entry `(s, p)` is the weight of sample `s` times the real part there. -/
theorem pay3_apply (v0 : Vec Ideal S1x1024x384 .f32) (v8 : Vec Ideal S1x1024x1 .f32) (s : Fin 1024) (p : Fin 384) :
    k0_pay3 (F := Ideal) v0 v8 (ix2 s p) = v8 (ix3 (0 : Fin 1) s (0 : Fin 1)) * v0 (ix3 (0 : Fin 1) s p) := by
  unfold k0_pay3
  show broadcastTo S1024x384 (k0_pay2 (F := Ideal) v8) broadcasts_S1024x1_S1024x384 (ix2 s p)
      * shapeCast S1024x384 v0 shapeCasts_S1x1024x384_S1024x384 (ix2 s p) = _
  rw [weights_lanes_apply v8 s p, block_apply v0 s p]

/-- The weighted imaginary part, likewise. -/
theorem pay4_apply (v2 : Vec Ideal S1x1024x384 .f32) (v8 : Vec Ideal S1x1024x1 .f32) (s : Fin 1024) (p : Fin 384) :
    k0_pay4 (F := Ideal) v2 v8 (ix2 s p) = v8 (ix3 (0 : Fin 1) s (0 : Fin 1)) * v2 (ix3 (0 : Fin 1) s p) := by
  unfold k0_pay4
  show broadcastTo S1024x384 (k0_pay2 (F := Ideal) v8) broadcasts_S1024x1_S1024x384 (ix2 s p)
      * shapeCast S1024x384 v2 shapeCasts_S1x1024x384_S1024x384 (ix2 s p) = _
  rw [weights_lanes_apply v8 s p, block_apply v2 s p]

/-- The right-hand real part, unweighted: the block itself. -/
theorem pay5_apply (v4 : Vec Ideal S1x1024x384 .f32) (s : Fin 1024) (q : Fin 384) :
    k0_pay5 (F := Ideal) v4 (ix2 s q) = v4 (ix3 (0 : Fin 1) s q) := by
  unfold k0_pay5
  exact block_apply v4 s q

/-- The right-hand imaginary part, unweighted: the block itself. -/
theorem pay6_apply (v6 : Vec Ideal S1x1024x384 .f32) (s : Fin 1024) (q : Fin 384) :
    k0_pay6 (F := Ideal) v6 (ix2 s q) = v6 (ix3 (0 : Fin 1) s q) := by
  unfold k0_pay6
  exact block_apply v6 s q

/-- The transposed left factor reads the untransposed one with its coordinates swapped. -/
theorem transposed_apply (A : FVec Ideal S1024x384 .bf16) (p : Fin 384) (s : Fin 1024) :
    transpose S384x1024 [1, 0] A transposes_S1024x384_p1_0_S384x1024 (ix2 p s) = A (ix2 s p) :=
  transpose_ix2_apply A transposes_S1024x384_p1_0_S384x1024 p s

/-! ## The product: a sum over the samples

The contraction runs over axis 1 of the left operand and axis 0 of the right one; the other axis of
each operand is the result's row, respectively column. -/

theorem lhs_mm_0 (i : S384x384.Idx) (k : dot_S384x1024_S1024x384_S384x384_1_0_0_1_n_n.contr.Idx) :
    (dot_S384x1024_S1024x384_S384x384_1_0_0_1_n_n.lhsIdx i k 0).val = (i 0).val := by
  unfold DotDims.lhsIdx
  rw [dif_neg (show ¬(0 : Fin S384x1024.rank) ∈ dot_S384x1024_S1024x384_S384x384_1_0_0_1_n_n.lhsBatch by decide), dif_pos (show (0 : Fin S384x1024.rank) ∈ dot_S384x1024_S1024x384_S384x384_1_0_0_1_n_n.lhsNonContracting by decide)]
  rfl
theorem lhs_mm_1 (i : S384x384.Idx) (k : dot_S384x1024_S1024x384_S384x384_1_0_0_1_n_n.contr.Idx) :
    (dot_S384x1024_S1024x384_S384x384_1_0_0_1_n_n.lhsIdx i k 1).val = (k ⟨0, by decide⟩).val :=
  dot_S384x1024_S1024x384_S384x384_1_0_0_1_n_n.lhsIdx_val_of_single rfl i k
theorem rhs_mm_0 (i : S384x384.Idx) (k : dot_S384x1024_S1024x384_S384x384_1_0_0_1_n_n.contr.Idx) :
    (dot_S384x1024_S1024x384_S384x384_1_0_0_1_n_n.rhsIdx i k 0).val = (k ⟨0, by decide⟩).val :=
  dot_S384x1024_S1024x384_S384x384_1_0_0_1_n_n.rhsIdx_val_of_single rfl i k
theorem rhs_mm_1 (i : S384x384.Idx) (k : dot_S384x1024_S1024x384_S384x384_1_0_0_1_n_n.contr.Idx) :
    (dot_S384x1024_S1024x384_S384x384_1_0_0_1_n_n.rhsIdx i k 1).val = (i 1).val := by
  unfold DotDims.rhsIdx
  rw [dif_neg (show ¬(1 : Fin S1024x384.rank) ∈ dot_S384x1024_S1024x384_S384x384_1_0_0_1_n_n.rhsBatch by decide), dif_pos (show (1 : Fin S1024x384.rank) ∈ dot_S384x1024_S1024x384_S384x384_1_0_0_1_n_n.rhsNonContracting by decide)]
  rfl

/-- A [384,1024] by [1024,384] product into the zero accumulator: entry `(p, q)` is the sum over the
    samples `s` of the left operand at `(p, s)` times the right operand at `(s, q)`. -/
theorem product_apply (A : FVec Ideal S384x1024 .bf16) (B : FVec Ideal S1024x384 .bf16) (p q : Fin 384) :
    matmul (F := Ideal) dot_S384x1024_S1024x384_S384x384_1_0_0_1_n_n none A B (constant (F := Ideal) S384x384 .f32 0x00000000#32) (ix2 p q)
      = ∑ s : Fin 1024, A (ix2 p s) * B (ix2 s q) := by
  simp only [matmul]
  rw [Ideal.matmul_constant_zero_apply, ← Equiv.sum_comp (ValueIdx.contrEquiv1 dot_S384x1024_S1024x384_S384x384_1_0_0_1_n_n 1024 rfl rfl).symm]
  refine Finset.sum_congr rfl fun s _ => ?_
  have hk := ValueIdx.contrEquiv1_symm_val dot_S384x1024_S1024x384_S384x384_1_0_0_1_n_n 1024 rfl rfl s
  have el : dot_S384x1024_S1024x384_S384x384_1_0_0_1_n_n.lhsIdx (ix2 p q) ((ValueIdx.contrEquiv1 dot_S384x1024_S1024x384_S384x384_1_0_0_1_n_n 1024 rfl rfl).symm s) = ix2 p s := funext fun a => Fin.ext (by
    match a with
    | ⟨0, _⟩ => exact lhs_mm_0 _ _
    | ⟨1, _⟩ => exact (lhs_mm_1 _ _).trans hk)
  have er : dot_S384x1024_S1024x384_S384x384_1_0_0_1_n_n.rhsIdx (ix2 p q) ((ValueIdx.contrEquiv1 dot_S384x1024_S1024x384_S384x384_1_0_0_1_n_n 1024 rfl rfl).symm s) = ix2 s q := funext fun a => Fin.ext (by
    match a with
    | ⟨0, _⟩ => exact (rhs_mm_0 _ _).trans hk
    | ⟨1, _⟩ => exact rhs_mm_1 _ _)
  rw [el, er]

/-- The product of a transposed weighted block with an unweighted one: the sample axis is summed. -/
theorem gram_apply (A B : FVec Ideal S1024x384 .bf16) (p q : Fin 384) :
    matmul (F := Ideal) dot_S384x1024_S1024x384_S384x384_1_0_0_1_n_n none
        (transpose S384x1024 [1, 0] A transposes_S1024x384_p1_0_S384x1024) B
        (constant (F := Ideal) S384x384 .f32 0x00000000#32) (ix2 p q)
      = ∑ s : Fin 1024, A (ix2 s p) * B (ix2 s q) := by
  refine (product_apply _ B p q).trans ?_
  exact Finset.sum_congr rfl fun s _ => congrArg (· * B (ix2 s q)) (transposed_apply A p s)

/-! ## The two stored blocks -/

/-- The first stored block: the weighted real-real sum plus the weighted imaginary-imaginary sum. -/
theorem pay8_apply (v0 v2 v4 v6 : Vec Ideal S1x1024x384 .f32) (v8 : Vec Ideal S1x1024x1 .f32) (p q : Fin 384) :
    k0_pay8 (F := Ideal) v0 v2 v4 v6 v8 (ix3 (0 : Fin 1) p q)
      = (∑ s : Fin 1024, (v8 (ix3 (0 : Fin 1) s (0 : Fin 1)) * v0 (ix3 (0 : Fin 1) s p)) * v4 (ix3 (0 : Fin 1) s q))
        + ∑ s : Fin 1024, (v8 (ix3 (0 : Fin 1) s (0 : Fin 1)) * v2 (ix3 (0 : Fin 1) s p)) * v6 (ix3 (0 : Fin 1) s q) := by
  unfold k0_pay8
  refine (shapeCast_ab_1ab_apply _ shapeCasts_S384x384_S1x384x384 (0 : Fin 1) p q).trans ?_
  refine (addf_apply _ _ (ix2 p q)).trans ?_
  refine congrArg₂ (· + ·) ?_ ?_
  · refine (gram_apply (k0_pay3 (F := Ideal) v0 v8) (k0_pay5 (F := Ideal) v4) p q).trans ?_
    exact Finset.sum_congr rfl fun s _ => by rw [pay3_apply v0 v8 s p, pay5_apply v4 s q]
  · refine (gram_apply (k0_pay4 (F := Ideal) v2 v8) (k0_pay6 (F := Ideal) v6) p q).trans ?_
    exact Finset.sum_congr rfl fun s _ => by rw [pay4_apply v2 v8 s p, pay6_apply v6 s q]

/-- The second stored block: the weighted imaginary-real sum minus the weighted real-imaginary sum. -/
theorem pay1_pay7_apply (v0 v2 v4 v6 : Vec Ideal S1x1024x384 .f32) (v8 : Vec Ideal S1x1024x1 .f32) (p q : Fin 384) :
    k0_pay1 (F := Ideal) (k0_pay7 (F := Ideal) v0 v2 v4 v6 v8) (ix3 (0 : Fin 1) p q)
      = (∑ s : Fin 1024, (v8 (ix3 (0 : Fin 1) s (0 : Fin 1)) * v2 (ix3 (0 : Fin 1) s p)) * v4 (ix3 (0 : Fin 1) s q))
        - ∑ s : Fin 1024, (v8 (ix3 (0 : Fin 1) s (0 : Fin 1)) * v0 (ix3 (0 : Fin 1) s p)) * v6 (ix3 (0 : Fin 1) s q) := by
  unfold k0_pay1
  refine (shapeCast_ab_1ab_apply _ shapeCasts_S384x384_S1x384x384 (0 : Fin 1) p q).trans ?_
  unfold k0_pay7
  refine (subf_apply _ _ (ix2 p q)).trans ?_
  refine congrArg₂ (· - ·) ?_ ?_
  · refine (gram_apply (k0_pay4 (F := Ideal) v2 v8) (k0_pay5 (F := Ideal) v4) p q).trans ?_
    exact Finset.sum_congr rfl fun s _ => by rw [pay4_apply v2 v8 s p, pay5_apply v4 s q]
  · refine (gram_apply (k0_pay3 (F := Ideal) v0 v8) (k0_pay6 (F := Ideal) v6) p q).trans ?_
    exact Finset.sum_congr rfl fun s _ => by rw [pay3_apply v0 v8 s p, pay6_apply v6 s q]

end Cert.KernelIdeal.Payload

end
-- ==== Proof.ValueIdeal.lean ====
/-
  From the blocks the points write back to the two whole result arrays.

  The grid is 16 × 2 × 2.  The point (b, i, j) is handed columns [384 i, 384 i + 384) of the real and of the imaginary
  part of batch b, all 1024 rows (the left pair of blocks), columns [384 j, 384 j + 384) of the same two arrays (the
  right pair), and batch b's weights as a column; it writes back block (b, i, j) of each result, a 384 × 384 tile of
  batch b's 768 × 768 matrix.

  Entry (p, q) of that tile is the body's arithmetic on the five blocks: sums over the 1024 rows s of
  (weight[s] · left[s, p]) · right[s, q].  Read through the blocks, left[s, p] is the argument at (b, s, 384 i + p),
  right[s, q] the argument at (b, s, 384 j + q) and weight[s] the weight at (b, s): so the tile's entry is the mixture
  at (b, 384 i + p, 384 j + q), the same sums term by term, and no law of the extended reals is used.

  Every index (b, P, Q) of a result lies in the tile of the point (b, P / 384, Q / 384), and every point writes its
  tile back.  So after the run each result array is the mixture of the three argument arrays as launched.
-/
import proofs.«171447_j54906861912216_1_alg».proof.Proof.FrameIdeal
import proofs.«171447_j54906861912216_1_alg».proof.Proof.PayloadIdeal
import proofs.«171447_j54906861912216_1_alg».proof.Proof.Mixture
import Idealize.ShloMosaic.Lib.Pipeline.Value
import Idealize.ShloMosaic.Lib.ValueIdx
import Idealize.ShloMosaic.Lib.StableHlo.Run

noncomputable section

namespace Cert.KernelIdeal.SharedValue

open Cert.KernelIdeal Cert.KernelIdeal.Gen Cert.KernelIdeal.Shared Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The zero offsets of a whole-block rectangle. -/
theorem hz : (![0, 0, 0] : Fin 3 → Nat) = fun _ => 0 := funext fun a => by fin_cases a <;> rfl

/-! ## The block indices at a point

Each window's block index at the point `t`, axis by axis, in the point's coordinates (b, i, j): a finite check over
the 64 points. -/

/-- The left pair of windows is at block (b, 0, i). -/
theorem idx_left : ∀ t : Fin cfg0.N,
    (win0_0.index t (0 : Fin 3) = (grid0.coords t 0).val ∧ win0_0.index t (1 : Fin 3) = 0 ∧ win0_0.index t (2 : Fin 3) = (grid0.coords t 1).val)
    ∧ (win0_1.index t (0 : Fin 3) = (grid0.coords t 0).val ∧ win0_1.index t (1 : Fin 3) = 0 ∧ win0_1.index t (2 : Fin 3) = (grid0.coords t 1).val) :=
  (by decide +kernel : ∀ t : Fin grid0.N, _)

/-- The right pair of windows is at block (b, 0, j). -/
theorem idx_right : ∀ t : Fin cfg0.N,
    (win0_2.index t (0 : Fin 3) = (grid0.coords t 0).val ∧ win0_2.index t (1 : Fin 3) = 0 ∧ win0_2.index t (2 : Fin 3) = (grid0.coords t 2).val)
    ∧ (win0_3.index t (0 : Fin 3) = (grid0.coords t 0).val ∧ win0_3.index t (1 : Fin 3) = 0 ∧ win0_3.index t (2 : Fin 3) = (grid0.coords t 2).val) :=
  (by decide +kernel : ∀ t : Fin grid0.N, _)

/-- The weight window is at block (b, 0, 0). -/
theorem idx_weight : ∀ t : Fin cfg0.N,
    win0_4.index t (0 : Fin 3) = (grid0.coords t 0).val ∧ win0_4.index t (1 : Fin 3) = 0 ∧ win0_4.index t (2 : Fin 3) = 0 :=
  (by decide +kernel : ∀ t : Fin grid0.N, _)

/-- The two result windows are at block (b, i, j), and the coordinates stay in the grid. -/
theorem idx_out : ∀ t : Fin cfg0.N,
    (win0_5.index t (0 : Fin 3) = (grid0.coords t 0).val ∧ win0_5.index t (1 : Fin 3) = (grid0.coords t 1).val ∧ win0_5.index t (2 : Fin 3) = (grid0.coords t 2).val)
    ∧ (win0_6.index t (0 : Fin 3) = (grid0.coords t 0).val ∧ win0_6.index t (1 : Fin 3) = (grid0.coords t 1).val ∧ win0_6.index t (2 : Fin 3) = (grid0.coords t 2).val)
    ∧ (grid0.coords t 0).val < 16 ∧ (grid0.coords t 1).val < 2 ∧ (grid0.coords t 2).val < 2 :=
  (by decide +kernel : ∀ t : Fin grid0.N, _)

/-- Every (b, i, j) in the grid is the coordinates of a point. -/
theorem idx_onto : ∀ (b : Fin 16) (i j : Fin 2), ∃ t : Fin cfg0.N,
    (grid0.coords t 0).val = b.val ∧ (grid0.coords t 1).val = i.val ∧ (grid0.coords t 2).val = j.val :=
  (by decide +kernel : ∀ (b : Fin 16) (i j : Fin 2), ∃ t : Fin grid0.N, _)

/-! ## The input blocks, read at an entry

A block's entry sits in its array, on each axis, at the block index times the block's extent plus the entry's own
coordinate.  The left pair of windows takes columns 384 i … 384 i + 383 of batch b, the right pair columns
384 j … 384 j + 383, all 1024 rows; the weight window takes batch b's column of weights. -/

/-- Window 0's block at the point (b, i, j), entry (0, s, p), is the real part at (b, s, 384 i + p). -/
theorem left_re (t : Fin cfg0.N) (s : Fin 1024) (p : Fin 384) (k : S16x1024x768.Idx)
    (h0 : (k 0).val = (grid0.coords t 0).val) (h1 : (k 1).val = s.val) (h2 : (k 2).val = 384 * (grid0.coords t 1).val + p.val) :
    (iblk m c 0 t : Vec Ideal S1x1024x384 .f32) (ix3 (0 : Fin 1) s p)
      = (m ((c.tc : Thread nD τ).loc main_arg0) : S16x1024x768.Idx → EReal) k := by
  obtain ⟨⟨e0, e1, e2⟩, -⟩ := idx_left t
  show V m c main_arg0 (((cfg0.win 0).blk t).view.emb (ix3 (0 : Fin 1) s p)) = _
  rw [V_main_arg0]
  refine congrArg (m ((c.tc : Thread nD τ).loc main_arg0) : S16x1024x768.Idx → EReal) (funext fun a => Fin.ext ?_)
  match a with
  | ⟨0, _⟩ => show win0_0.index t (0 : Fin 3) * 1 + 1 * 0 = (k 0).val; omega
  | ⟨1, _⟩ => show win0_0.index t (1 : Fin 3) * 1024 + 1 * s.val = (k 1).val; omega
  | ⟨2, _⟩ => show win0_0.index t (2 : Fin 3) * 384 + 1 * p.val = (k 2).val; omega

/-- Window 1's block, entry (0, s, p), is the imaginary part at (b, s, 384 i + p). -/
theorem left_im (t : Fin cfg0.N) (s : Fin 1024) (p : Fin 384) (k : S16x1024x768.Idx)
    (h0 : (k 0).val = (grid0.coords t 0).val) (h1 : (k 1).val = s.val) (h2 : (k 2).val = 384 * (grid0.coords t 1).val + p.val) :
    (iblk m c 1 t : Vec Ideal S1x1024x384 .f32) (ix3 (0 : Fin 1) s p)
      = (m ((c.tc : Thread nD τ).loc main_arg1) : S16x1024x768.Idx → EReal) k := by
  obtain ⟨-, e0, e1, e2⟩ := idx_left t
  show V m c main_arg1 (((cfg0.win 1).blk t).view.emb (ix3 (0 : Fin 1) s p)) = _
  rw [V_main_arg1]
  refine congrArg (m ((c.tc : Thread nD τ).loc main_arg1) : S16x1024x768.Idx → EReal) (funext fun a => Fin.ext ?_)
  match a with
  | ⟨0, _⟩ => show win0_1.index t (0 : Fin 3) * 1 + 1 * 0 = (k 0).val; omega
  | ⟨1, _⟩ => show win0_1.index t (1 : Fin 3) * 1024 + 1 * s.val = (k 1).val; omega
  | ⟨2, _⟩ => show win0_1.index t (2 : Fin 3) * 384 + 1 * p.val = (k 2).val; omega

/-- Window 2's block, entry (0, s, q), is the real part at (b, s, 384 j + q). -/
theorem right_re (t : Fin cfg0.N) (s : Fin 1024) (q : Fin 384) (k : S16x1024x768.Idx)
    (h0 : (k 0).val = (grid0.coords t 0).val) (h1 : (k 1).val = s.val) (h2 : (k 2).val = 384 * (grid0.coords t 2).val + q.val) :
    (iblk m c 2 t : Vec Ideal S1x1024x384 .f32) (ix3 (0 : Fin 1) s q)
      = (m ((c.tc : Thread nD τ).loc main_arg0) : S16x1024x768.Idx → EReal) k := by
  obtain ⟨⟨e0, e1, e2⟩, -⟩ := idx_right t
  show V m c main_arg0 (((cfg0.win 2).blk t).view.emb (ix3 (0 : Fin 1) s q)) = _
  rw [V_main_arg0]
  refine congrArg (m ((c.tc : Thread nD τ).loc main_arg0) : S16x1024x768.Idx → EReal) (funext fun a => Fin.ext ?_)
  match a with
  | ⟨0, _⟩ => show win0_2.index t (0 : Fin 3) * 1 + 1 * 0 = (k 0).val; omega
  | ⟨1, _⟩ => show win0_2.index t (1 : Fin 3) * 1024 + 1 * s.val = (k 1).val; omega
  | ⟨2, _⟩ => show win0_2.index t (2 : Fin 3) * 384 + 1 * q.val = (k 2).val; omega

/-- Window 3's block, entry (0, s, q), is the imaginary part at (b, s, 384 j + q). -/
theorem right_im (t : Fin cfg0.N) (s : Fin 1024) (q : Fin 384) (k : S16x1024x768.Idx)
    (h0 : (k 0).val = (grid0.coords t 0).val) (h1 : (k 1).val = s.val) (h2 : (k 2).val = 384 * (grid0.coords t 2).val + q.val) :
    (iblk m c 3 t : Vec Ideal S1x1024x384 .f32) (ix3 (0 : Fin 1) s q)
      = (m ((c.tc : Thread nD τ).loc main_arg1) : S16x1024x768.Idx → EReal) k := by
  obtain ⟨-, e0, e1, e2⟩ := idx_right t
  show V m c main_arg1 (((cfg0.win 3).blk t).view.emb (ix3 (0 : Fin 1) s q)) = _
  rw [V_main_arg1]
  refine congrArg (m ((c.tc : Thread nD τ).loc main_arg1) : S16x1024x768.Idx → EReal) (funext fun a => Fin.ext ?_)
  match a with
  | ⟨0, _⟩ => show win0_3.index t (0 : Fin 3) * 1 + 1 * 0 = (k 0).val; omega
  | ⟨1, _⟩ => show win0_3.index t (1 : Fin 3) * 1024 + 1 * s.val = (k 1).val; omega
  | ⟨2, _⟩ => show win0_3.index t (2 : Fin 3) * 384 + 1 * q.val = (k 2).val; omega

/-- The array behind window 4 as the region finds it: the weights laid out as columns by the one host operation. -/
theorem weights_as_columns : (V m c main_v0 : S16x1024x1.Idx → EReal)
    = broadcastInDim S16x1024x1 ![0, 1] bcast_S16x1024_S16x1024x1_0_1 (m ((c.tc : Thread nD τ).loc main_arg2)) := by
  dsimp only [V, Gen.hostOps0]
  after_results

/-- Window 4's block, entry (0, s, 0), is the weight at (b, s). -/
theorem weight_at (t : Fin cfg0.N) (s : Fin 1024) (k : S16x1024.Idx)
    (h0 : (k 0).val = (grid0.coords t 0).val) (h1 : (k 1).val = s.val) :
    (iblk m c 4 t : Vec Ideal S1x1024x1 .f32) (ix3 (0 : Fin 1) s (0 : Fin 1))
      = (m ((c.tc : Thread nD τ).loc main_arg2) : S16x1024.Idx → EReal) k := by
  obtain ⟨e0, e1, e2⟩ := idx_weight t
  show (V m c main_v0 : S16x1024x1.Idx → EReal) (((cfg0.win 4).blk t).view.emb (ix3 (0 : Fin 1) s (0 : Fin 1))) = _
  rw [weights_as_columns]
  refine broadcastInDim_apply _ bcast_S16x1024_S16x1024x1_0_1 _ _ k (fun a => ?_)
  match a with
  | ⟨0, _⟩ =>
    show (k 0).val = if (16 : Nat) = 1 then 0 else win0_4.index t (0 : Fin 3) * 1 + 1 * 0
    rw [if_neg (by decide)]; omega
  | ⟨1, _⟩ =>
    show (k 1).val = if (1024 : Nat) = 1 then 0 else win0_4.index t (1 : Fin 3) * 1024 + 1 * s.val
    rw [if_neg (by decide)]; omega

/-! ## One entry of a result block

Entry (0, p, q) of the block the point (b, i, j) writes is the body's arithmetic on the five input blocks; with each
input block read as its part of the argument arrays it is the mixture at (b, 384 i + p, 384 j + q): the same four sums
over the 1024 rows, term by term. -/

/-- The real result: both Gram sums, term by term. -/
theorem re_entry (re im : S16x1024x768.Idx → EReal) (w : S16x1024.Idx → EReal)
    (v0 v2 v4 v6 : Vec Ideal S1x1024x384 .f32) (v8 : Vec Ideal S1x1024x1 .f32)
    (b : Fin 16) (P Q : Fin 768) (p q : Fin 384)
    (h0 : ∀ s : Fin 1024, v0 (ix3 (0 : Fin 1) s p) = re (ix3 b s P))
    (h2 : ∀ s : Fin 1024, v2 (ix3 (0 : Fin 1) s p) = im (ix3 b s P))
    (h4 : ∀ s : Fin 1024, v4 (ix3 (0 : Fin 1) s q) = re (ix3 b s Q))
    (h6 : ∀ s : Fin 1024, v6 (ix3 (0 : Fin 1) s q) = im (ix3 b s Q))
    (h8 : ∀ s : Fin 1024, v8 (ix3 (0 : Fin 1) s (0 : Fin 1)) = w (ix2 b s)) :
    k0_pay8 (F := Ideal) v0 v2 v4 v6 v8 (ix3 (0 : Fin 1) p q) = Cert.Mixture.outRe re im w (ix3 b P Q) := by
  refine (Payload.pay8_apply v0 v2 v4 v6 v8 p q).trans ?_
  show _ = (∑ s : Fin 1024, (w (ix2 b s) * re (ix3 b s P)) * re (ix3 b s Q))
      + ∑ s : Fin 1024, (w (ix2 b s) * im (ix3 b s P)) * im (ix3 b s Q)
  refine congrArg₂ (· + ·) (Finset.sum_congr rfl fun s _ => ?_) (Finset.sum_congr rfl fun s _ => ?_)
  · rw [h8 s, h0 s, h4 s]
  · rw [h8 s, h2 s, h6 s]

/-- The imaginary result: the difference of the two mixed Gram sums, term by term. -/
theorem im_entry (re im : S16x1024x768.Idx → EReal) (w : S16x1024.Idx → EReal)
    (v0 v2 v4 v6 : Vec Ideal S1x1024x384 .f32) (v8 : Vec Ideal S1x1024x1 .f32)
    (b : Fin 16) (P Q : Fin 768) (p q : Fin 384)
    (h0 : ∀ s : Fin 1024, v0 (ix3 (0 : Fin 1) s p) = re (ix3 b s P))
    (h2 : ∀ s : Fin 1024, v2 (ix3 (0 : Fin 1) s p) = im (ix3 b s P))
    (h4 : ∀ s : Fin 1024, v4 (ix3 (0 : Fin 1) s q) = re (ix3 b s Q))
    (h6 : ∀ s : Fin 1024, v6 (ix3 (0 : Fin 1) s q) = im (ix3 b s Q))
    (h8 : ∀ s : Fin 1024, v8 (ix3 (0 : Fin 1) s (0 : Fin 1)) = w (ix2 b s)) :
    k0_pay1 (F := Ideal) (k0_pay7 (F := Ideal) v0 v2 v4 v6 v8) (ix3 (0 : Fin 1) p q) = Cert.Mixture.outIm re im w (ix3 b P Q) := by
  refine (Payload.pay1_pay7_apply v0 v2 v4 v6 v8 p q).trans ?_
  show _ = (∑ s : Fin 1024, (w (ix2 b s) * im (ix3 b s P)) * re (ix3 b s Q))
      - ∑ s : Fin 1024, (w (ix2 b s) * re (ix3 b s P)) * im (ix3 b s Q)
  refine congrArg₂ (· - ·) (Finset.sum_congr rfl fun s _ => ?_) (Finset.sum_congr rfl fun s _ => ?_)
  · rw [h8 s, h2 s, h4 s]
  · rw [h8 s, h0 s, h6 s]

/-! ## What a point writes back

The point (b, i, j) writes back block (b, i, j) of each result: entry (0, p, q) of the block goes to
(b, 384 i + p, 384 j + q) of the array, where the mixture is the sums the body computed. -/

/-- The real result: what point `t` writes back is its block of the mixture's real part. -/
theorem flushed_re (t : Fin cfg0.N) :
    (dats (F := Ideal) m 0 c).flushed 5 t = ((cfg0.win 5).blk t).view.read (Elt Ideal)
      (Cert.Mixture.outRe (m ((c.tc : Thread nD τ).loc main_arg0)) (m ((c.tc : Thread nD τ).loc main_arg1)) (m ((c.tc : Thread nD τ).loc main_arg2))) := by
  show (cfg0.win 5).cut (grid0.coords t) ((dats (F := Ideal) m 0 c).after 5 t) = _
  rw [after0_5]
  unfold Shared.outRe
  rw [View.canon_unit_zero hz]
  simp only [View.ld_unit_zero (S := S1x1024x384) hz, View.ld_unit_zero (S := S1x1024x1) hz]
  obtain ⟨⟨e0, e1, e2⟩, -, b0, b1, b2⟩ := idx_out t
  funext j
  have hj0 : (j 0).val < 1 := (j 0).isLt
  have hj1 : (j 1).val < 384 := (j 1).isLt
  have hj2 : (j 2).val < 384 := (j 2).isLt
  have hy : (cfg0.win 5).xinj (grid0.coords t) j = ix3 (0 : Fin 1) (⟨(j 1).val, hj1⟩ : Fin 384) (⟨(j 2).val, hj2⟩ : Fin 384) :=
    funext fun a => Fin.ext (by
      match a with
      | ⟨0, _⟩ => show (j 0).val = 0; omega
      | ⟨1, _⟩ => rfl
      | ⟨2, _⟩ => rfl)
  have hK : ((cfg0.win 5).blk t).view.emb j
      = ix3 (⟨(grid0.coords t 0).val, b0⟩ : Fin 16) (⟨384 * (grid0.coords t 1).val + (j 1).val, by omega⟩ : Fin 768)
          (⟨384 * (grid0.coords t 2).val + (j 2).val, by omega⟩ : Fin 768) :=
    funext fun a => Fin.ext (by
      match a with
      | ⟨0, _⟩ => show win0_5.index t (0 : Fin 3) * 1 + 1 * (j 0).val = (grid0.coords t 0).val; omega
      | ⟨1, _⟩ => show win0_5.index t (1 : Fin 3) * 384 + 1 * (j 1).val = 384 * (grid0.coords t 1).val + (j 1).val; omega
      | ⟨2, _⟩ => show win0_5.index t (2 : Fin 3) * 384 + 1 * (j 2).val = 384 * (grid0.coords t 2).val + (j 2).val; omega)
  show k0_pay8 (F := Ideal) (iblk m c 0 t) (iblk m c 1 t) (iblk m c 2 t) (iblk m c 3 t) (iblk m c 4 t) ((cfg0.win 5).xinj (grid0.coords t) j)
      = Cert.Mixture.outRe (m ((c.tc : Thread nD τ).loc main_arg0)) (m ((c.tc : Thread nD τ).loc main_arg1)) (m ((c.tc : Thread nD τ).loc main_arg2)) (((cfg0.win 5).blk t).view.emb j)
  rw [hy, hK]
  exact re_entry _ _ _ (iblk m c 0 t) (iblk m c 1 t) (iblk m c 2 t) (iblk m c 3 t) (iblk m c 4 t) _ _ _ _ _
    (fun s => left_re m c t s _ _ rfl rfl rfl) (fun s => left_im m c t s _ _ rfl rfl rfl)
    (fun s => right_re m c t s _ _ rfl rfl rfl) (fun s => right_im m c t s _ _ rfl rfl rfl)
    (fun s => weight_at m c t s _ rfl rfl)

/-- The imaginary result: what point `t` writes back is its block of the mixture's imaginary part. -/
theorem flushed_im (t : Fin cfg0.N) :
    (dats (F := Ideal) m 0 c).flushed 6 t = ((cfg0.win 6).blk t).view.read (Elt Ideal)
      (Cert.Mixture.outIm (m ((c.tc : Thread nD τ).loc main_arg0)) (m ((c.tc : Thread nD τ).loc main_arg1)) (m ((c.tc : Thread nD τ).loc main_arg2))) := by
  show (cfg0.win 6).cut (grid0.coords t) ((dats (F := Ideal) m 0 c).after 6 t) = _
  rw [after0_6]
  unfold Shared.outIm
  rw [View.canon_unit_zero hz]
  simp only [View.ld_unit_zero (S := S1x1024x384) hz, View.ld_unit_zero (S := S1x1024x1) hz]
  obtain ⟨-, ⟨e0, e1, e2⟩, b0, b1, b2⟩ := idx_out t
  funext j
  have hj0 : (j 0).val < 1 := (j 0).isLt
  have hj1 : (j 1).val < 384 := (j 1).isLt
  have hj2 : (j 2).val < 384 := (j 2).isLt
  have hy : (cfg0.win 6).xinj (grid0.coords t) j = ix3 (0 : Fin 1) (⟨(j 1).val, hj1⟩ : Fin 384) (⟨(j 2).val, hj2⟩ : Fin 384) :=
    funext fun a => Fin.ext (by
      match a with
      | ⟨0, _⟩ => show (j 0).val = 0; omega
      | ⟨1, _⟩ => rfl
      | ⟨2, _⟩ => rfl)
  have hK : ((cfg0.win 6).blk t).view.emb j
      = ix3 (⟨(grid0.coords t 0).val, b0⟩ : Fin 16) (⟨384 * (grid0.coords t 1).val + (j 1).val, by omega⟩ : Fin 768)
          (⟨384 * (grid0.coords t 2).val + (j 2).val, by omega⟩ : Fin 768) :=
    funext fun a => Fin.ext (by
      match a with
      | ⟨0, _⟩ => show win0_6.index t (0 : Fin 3) * 1 + 1 * (j 0).val = (grid0.coords t 0).val; omega
      | ⟨1, _⟩ => show win0_6.index t (1 : Fin 3) * 384 + 1 * (j 1).val = 384 * (grid0.coords t 1).val + (j 1).val; omega
      | ⟨2, _⟩ => show win0_6.index t (2 : Fin 3) * 384 + 1 * (j 2).val = 384 * (grid0.coords t 2).val + (j 2).val; omega)
  show k0_pay1 (F := Ideal) (k0_pay7 (F := Ideal) (iblk m c 0 t) (iblk m c 1 t) (iblk m c 2 t) (iblk m c 3 t) (iblk m c 4 t)) ((cfg0.win 6).xinj (grid0.coords t) j)
      = Cert.Mixture.outIm (m ((c.tc : Thread nD τ).loc main_arg0)) (m ((c.tc : Thread nD τ).loc main_arg1)) (m ((c.tc : Thread nD τ).loc main_arg2)) (((cfg0.win 6).blk t).view.emb j)
  rw [hy, hK]
  exact im_entry _ _ _ (iblk m c 0 t) (iblk m c 1 t) (iblk m c 2 t) (iblk m c 3 t) (iblk m c 4 t) _ _ _ _ _
    (fun s => left_re m c t s _ _ rfl rfl rfl) (fun s => left_im m c t s _ _ rfl rfl rfl)
    (fun s => right_re m c t s _ _ rfl rfl rfl) (fun s => right_im m c t s _ _ rfl rfl rfl)
    (fun s => weight_at m c t s _ rfl rfl)

/-! ## The blocks tile the results

An index (b, P, Q) of a result lies in the block of the point (b, P / 384, Q / 384), and every point writes its
block back; so after the run each result array is the mixture everywhere. -/

/-- An index of the real result is in point `t`'s block iff each coordinate is in the block's range on its axis. -/
theorem mem_blk_re (t : Fin cfg0.N) (i : S16x768x768.Idx) :
    i ∈ ((cfg0.win 5).blk t).view.set ↔ ∀ a : Fin 3, win0_5.index t a * S1x384x384.size a ≤ (i a).val
      ∧ (i a).val < win0_5.index t a * S1x384x384.size a + S1x384x384.size a := by
  show i ∈ ((View.whole main_v1_0).slice (win0_5.rect t)).set ↔ _
  rw [View.set_slice_whole, Rect.mem_set_unit]
  exact Iff.rfl

/-- The same for the imaginary result. -/
theorem mem_blk_im (t : Fin cfg0.N) (i : S16x768x768.Idx) :
    i ∈ ((cfg0.win 6).blk t).view.set ↔ ∀ a : Fin 3, win0_6.index t a * S1x384x384.size a ≤ (i a).val
      ∧ (i a).val < win0_6.index t a * S1x384x384.size a + S1x384x384.size a := by
  show i ∈ ((View.whole main_v1_1).slice (win0_6.rect t)).set ↔ _
  rw [View.set_slice_whole, Rect.mem_set_unit]
  exact Iff.rfl

/-- Every index of the real result is in the block some point writes back. -/
theorem cover_re (i : S16x768x768.Idx) :
    ∃ t : Fin cfg0.N, (cfg0.win 5).flush t = true ∧ i ∈ ((cfg0.win 5).blk t).view.set := by
  have h0 : (i 0).val < 16 := (i 0).isLt
  have h1 : (i 1).val < 768 := (i 1).isLt
  have h2 : (i 2).val < 768 := (i 2).isLt
  obtain ⟨t, c0, c1, c2⟩ := idx_onto ⟨(i 0).val, h0⟩ ⟨(i 1).val / 384, by omega⟩ ⟨(i 2).val / 384, by omega⟩
  have c0' : (grid0.coords t 0).val = (i 0).val := c0
  have c1' : (grid0.coords t 1).val = (i 1).val / 384 := c1
  have c2' : (grid0.coords t 2).val = (i 2).val / 384 := c2
  obtain ⟨⟨e0, e1, e2⟩, -, -⟩ := idx_out t
  refine ⟨t, flush0_5 t, ?_⟩
  rw [mem_blk_re]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 384 ≤ (i 1).val ∧ (i 1).val < win0_5.index t (1 : Fin 3) * 384 + 384; omega
  | ⟨2, _⟩ => show win0_5.index t (2 : Fin 3) * 384 ≤ (i 2).val ∧ (i 2).val < win0_5.index t (2 : Fin 3) * 384 + 384; omega

/-- Every index of the imaginary result is in the block some point writes back. -/
theorem cover_im (i : S16x768x768.Idx) :
    ∃ t : Fin cfg0.N, (cfg0.win 6).flush t = true ∧ i ∈ ((cfg0.win 6).blk t).view.set := by
  have h0 : (i 0).val < 16 := (i 0).isLt
  have h1 : (i 1).val < 768 := (i 1).isLt
  have h2 : (i 2).val < 768 := (i 2).isLt
  obtain ⟨t, c0, c1, c2⟩ := idx_onto ⟨(i 0).val, h0⟩ ⟨(i 1).val / 384, by omega⟩ ⟨(i 2).val / 384, by omega⟩
  have c0' : (grid0.coords t 0).val = (i 0).val := c0
  have c1' : (grid0.coords t 1).val = (i 1).val / 384 := c1
  have c2' : (grid0.coords t 2).val = (i 2).val / 384 := c2
  obtain ⟨-, ⟨e0, e1, e2⟩, -⟩ := idx_out t
  refine ⟨t, flush0_6 t, ?_⟩
  rw [mem_blk_im]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 384 ≤ (i 1).val ∧ (i 1).val < win0_6.index t (1 : Fin 3) * 384 + 384; omega
  | ⟨2, _⟩ => show win0_6.index t (2 : Fin 3) * 384 ≤ (i 2).val ∧ (i 2).val < win0_6.index t (2 : Fin 3) * 384 + 384; omega

/-- After the run the real result array is the mixture's real part of the three argument arrays as launched. -/
theorem final_re : (dats (F := Ideal) m 0 c).arrAt 5 cfg0.N
    = Cert.Mixture.outRe (m ((c.tc : Thread nD τ).loc main_arg0)) (m ((c.tc : Thread nD τ).loc main_arg1)) (m ((c.tc : Thread nD τ).loc main_arg2)) :=
  (dats (F := Ideal) m 0 c).arrAt_eq_of_cover 5 (Cert.Mixture.outRe (m ((c.tc : Thread nD τ).loc main_arg0)) (m ((c.tc : Thread nD τ).loc main_arg1)) (m ((c.tc : Thread nD τ).loc main_arg2)))
    (fun t _ => flushed_re m c t) cover_re

/-- After the run the imaginary result array is the mixture's imaginary part of the three argument arrays as launched. -/
theorem final_im : (dats (F := Ideal) m 0 c).arrAt 6 cfg0.N
    = Cert.Mixture.outIm (m ((c.tc : Thread nD τ).loc main_arg0)) (m ((c.tc : Thread nD τ).loc main_arg1)) (m ((c.tc : Thread nD τ).loc main_arg2)) :=
  (dats (F := Ideal) m 0 c).arrAt_eq_of_cover 6 (Cert.Mixture.outIm (m ((c.tc : Thread nD τ).loc main_arg0)) (m ((c.tc : Thread nD τ).loc main_arg1)) (m ((c.tc : Thread nD τ).loc main_arg2)))
    (fun t _ => flushed_im m c t) cover_im

end Cert.KernelIdeal.SharedValue

end
-- ==== Proof.RefMixture.lean ====
/-
  The reference program's two results are the weighted mixture's real and imaginary parts.

  The reference first spreads the weights over the last axis and multiplies them into each input part, so that
  the weighted part at \`(b, s, p)\` is \`w[b,s] · x[b,s,p]\`.  Each of its four batched contractions then sums, over
  the row \`s\`, the weighted part at \`(b, s, p)\` times an input part at \`(b, s, q)\`: that is one weighted Gram sum of
  the specification, term for term and with the factors in the same order.  The real result adds two of these
  sums and the imaginary result subtracts two, exactly as the specification does, so nothing but the
  identification of indices and a congruence of sums is needed.
-/
import proofs.«171447_j54906861912216_1_alg».proof.Proof.Gen.ReferenceIdeal.Read
import proofs.«171447_j54906861912216_1_alg».proof.Proof.Mixture
import Idealize.ShloMosaic.PureOps.Ideal
import Idealize.ShloMosaic.Lib.ValueIdx

noncomputable section

namespace Cert.ReferenceIdeal.RefMixture

open Cert.ReferenceIdeal Cert.ReferenceIdeal.Gen Cert.ReferenceIdeal.Read Idealize.ShloMosaic Idealize.ShloMosaic.TcCoe Idealize.ShloMosaic.ValueIdx

/-! ## The index functions of the reference, by coordinates -/

/-- Spreading the weights over a unit axis and then over the last axis reads the weight of batch \`b\` and row \`s\`,
    whatever the last coordinate \`p\` is (first copy of the two broadcasts). -/
theorem weightIdx_re (b : Fin 16) (s : Fin 1024) (p : Fin 768) :
    idx_main_v0 (idx_main_v1 (ix3 b s p)) = ix2 b s :=
  funext fun a => Fin.ext (by match a with | ⟨0, _⟩ => rfl | ⟨1, _⟩ => rfl)

/-- The same for the second copy of the two broadcasts. -/
theorem weightIdx_im (b : Fin 16) (s : Fin 1024) (p : Fin 768) :
    idx_main_v3 (idx_main_v4 (ix3 b s p)) = ix2 b s :=
  funext fun a => Fin.ext (by match a with | ⟨0, _⟩ => rfl | ⟨1, _⟩ => rfl)

/-- A contraction's left operand for the result entry \`(b, p, q)\` and the row \`s\` is read at \`(b, s, p)\`. -/
theorem lidx_v6 (b : Fin 16) (p q : Fin 768) (s : Fin 1024) : lidx_main_v6 (ix3 b p q) s = ix3 b s p :=
  funext fun a => Fin.ext (by match a with | ⟨0, _⟩ => rfl | ⟨1, _⟩ => rfl | ⟨2, _⟩ => rfl)
/-- Its right operand is read at \`(b, s, q)\`. -/
theorem ridx_v6 (b : Fin 16) (p q : Fin 768) (s : Fin 1024) : ridx_main_v6 (ix3 b p q) s = ix3 b s q :=
  funext fun a => Fin.ext (by match a with | ⟨0, _⟩ => rfl | ⟨1, _⟩ => rfl | ⟨2, _⟩ => rfl)
theorem lidx_v7 (b : Fin 16) (p q : Fin 768) (s : Fin 1024) : lidx_main_v7 (ix3 b p q) s = ix3 b s p :=
  funext fun a => Fin.ext (by match a with | ⟨0, _⟩ => rfl | ⟨1, _⟩ => rfl | ⟨2, _⟩ => rfl)
theorem ridx_v7 (b : Fin 16) (p q : Fin 768) (s : Fin 1024) : ridx_main_v7 (ix3 b p q) s = ix3 b s q :=
  funext fun a => Fin.ext (by match a with | ⟨0, _⟩ => rfl | ⟨1, _⟩ => rfl | ⟨2, _⟩ => rfl)
theorem lidx_v9 (b : Fin 16) (p q : Fin 768) (s : Fin 1024) : lidx_main_v9 (ix3 b p q) s = ix3 b s p :=
  funext fun a => Fin.ext (by match a with | ⟨0, _⟩ => rfl | ⟨1, _⟩ => rfl | ⟨2, _⟩ => rfl)
theorem ridx_v9 (b : Fin 16) (p q : Fin 768) (s : Fin 1024) : ridx_main_v9 (ix3 b p q) s = ix3 b s q :=
  funext fun a => Fin.ext (by match a with | ⟨0, _⟩ => rfl | ⟨1, _⟩ => rfl | ⟨2, _⟩ => rfl)
theorem lidx_v10 (b : Fin 16) (p q : Fin 768) (s : Fin 1024) : lidx_main_v10 (ix3 b p q) s = ix3 b s p :=
  funext fun a => Fin.ext (by match a with | ⟨0, _⟩ => rfl | ⟨1, _⟩ => rfl | ⟨2, _⟩ => rfl)
theorem ridx_v10 (b : Fin 16) (p q : Fin 768) (s : Fin 1024) : ridx_main_v10 (ix3 b p q) s = ix3 b s q :=
  funext fun a => Fin.ext (by match a with | ⟨0, _⟩ => rfl | ⟨1, _⟩ => rfl | ⟨2, _⟩ => rfl)

/-! ## The weighted parts at an index -/

/-- The weighted real part at \`(b, s, p)\` is \`w[b,s] · re[b,s,p]\`. -/
theorem weightedRe_apply (x0 : (⟨S16x1024x768, .f32⟩ : BufTy).Contents (Elt Ideal))
    (x2 : (⟨S16x1024, .f32⟩ : BufTy).Contents (Elt Ideal)) (b : Fin 16) (s : Fin 1024) (p : Fin 768) :
    val_main_v2 (F := Ideal) x0 x2 (ix3 b s p) = x2 (ix2 b s) * x0 (ix3 b s p) := by
  rw [val_main_v2_apply, val_main_v1_apply, val_main_v0_apply, weightIdx_re, Ideal.mulf_def]

/-- The weighted imaginary part at \`(b, s, p)\` is \`w[b,s] · im[b,s,p]\`. -/
theorem weightedIm_apply (x1 : (⟨S16x1024x768, .f32⟩ : BufTy).Contents (Elt Ideal))
    (x2 : (⟨S16x1024, .f32⟩ : BufTy).Contents (Elt Ideal)) (b : Fin 16) (s : Fin 1024) (p : Fin 768) :
    val_main_v5 (F := Ideal) x1 x2 (ix3 b s p) = x2 (ix2 b s) * x1 (ix3 b s p) := by
  rw [val_main_v5_apply, val_main_v4_apply, val_main_v3_apply, weightIdx_im, Ideal.mulf_def]

/-! ## The four contractions are the four weighted Gram sums -/

/-- Weighted real part against the real part: \`Σ_s (w[b,s]·re[b,s,p])·re[b,s,q]\`. -/
theorem gram_re_re (x0 : (⟨S16x1024x768, .f32⟩ : BufTy).Contents (Elt Ideal))
    (x2 : (⟨S16x1024, .f32⟩ : BufTy).Contents (Elt Ideal)) (b : Fin 16) (p q : Fin 768) :
    val_main_v6 (F := Ideal) x0 x2 (ix3 b p q) = Cert.Mixture.gram x2 x0 x0 b p q := by
  rw [val_main_v6_apply]
  unfold Cert.Mixture.gram
  refine Finset.sum_congr rfl fun s _ => ?_
  rw [lidx_v6, ridx_v6, weightedRe_apply]

/-- Weighted imaginary part against the imaginary part: \`Σ_s (w[b,s]·im[b,s,p])·im[b,s,q]\`. -/
theorem gram_im_im (x1 : (⟨S16x1024x768, .f32⟩ : BufTy).Contents (Elt Ideal))
    (x2 : (⟨S16x1024, .f32⟩ : BufTy).Contents (Elt Ideal)) (b : Fin 16) (p q : Fin 768) :
    val_main_v7 (F := Ideal) x1 x2 (ix3 b p q) = Cert.Mixture.gram x2 x1 x1 b p q := by
  rw [val_main_v7_apply]
  unfold Cert.Mixture.gram
  refine Finset.sum_congr rfl fun s _ => ?_
  rw [lidx_v7, ridx_v7, weightedIm_apply]

/-- Weighted imaginary part against the real part: \`Σ_s (w[b,s]·im[b,s,p])·re[b,s,q]\`. -/
theorem gram_im_re (x0 x1 : (⟨S16x1024x768, .f32⟩ : BufTy).Contents (Elt Ideal))
    (x2 : (⟨S16x1024, .f32⟩ : BufTy).Contents (Elt Ideal)) (b : Fin 16) (p q : Fin 768) :
    val_main_v9 (F := Ideal) x0 x1 x2 (ix3 b p q) = Cert.Mixture.gram x2 x1 x0 b p q := by
  rw [val_main_v9_apply]
  unfold Cert.Mixture.gram
  refine Finset.sum_congr rfl fun s _ => ?_
  rw [lidx_v9, ridx_v9, weightedIm_apply]

/-- Weighted real part against the imaginary part: \`Σ_s (w[b,s]·re[b,s,p])·im[b,s,q]\`. -/
theorem gram_re_im (x0 x1 : (⟨S16x1024x768, .f32⟩ : BufTy).Contents (Elt Ideal))
    (x2 : (⟨S16x1024, .f32⟩ : BufTy).Contents (Elt Ideal)) (b : Fin 16) (p q : Fin 768) :
    val_main_v10 (F := Ideal) x0 x1 x2 (ix3 b p q) = Cert.Mixture.gram x2 x0 x1 b p q := by
  rw [val_main_v10_apply]
  unfold Cert.Mixture.gram
  refine Finset.sum_congr rfl fun s _ => ?_
  rw [lidx_v10, ridx_v10, weightedRe_apply]

/-! ## The two results -/

/-- The real result at \`(b, p, q)\` is the sum of the real-real and the imaginary-imaginary Gram sums. -/
theorem val_v8_at (x0 x1 : (⟨S16x1024x768, .f32⟩ : BufTy).Contents (Elt Ideal))
    (x2 : (⟨S16x1024, .f32⟩ : BufTy).Contents (Elt Ideal)) (b : Fin 16) (p q : Fin 768) :
    val_main_v8 (F := Ideal) x0 x1 x2 (ix3 b p q)
      = Cert.Mixture.gram x2 x0 x0 b p q + Cert.Mixture.gram x2 x1 x1 b p q := by
  rw [val_main_v8_apply, gram_re_re, gram_im_im, Ideal.addf_def]

/-- The imaginary result at \`(b, p, q)\` is the imaginary-real Gram sum minus the real-imaginary one. -/
theorem val_v11_at (x0 x1 : (⟨S16x1024x768, .f32⟩ : BufTy).Contents (Elt Ideal))
    (x2 : (⟨S16x1024, .f32⟩ : BufTy).Contents (Elt Ideal)) (b : Fin 16) (p q : Fin 768) :
    val_main_v11 (F := Ideal) x0 x1 x2 (ix3 b p q)
      = Cert.Mixture.gram x2 x1 x0 b p q - Cert.Mixture.gram x2 x0 x1 b p q := by
  rw [val_main_v11_apply, gram_im_re, gram_re_im, Ideal.subf_def]

/-- The reference's first result is the real part of the mixture. -/
theorem val_v8_eq_outRe (x0 x1 : (⟨S16x1024x768, .f32⟩ : BufTy).Contents (Elt Ideal)) (x2 : (⟨S16x1024, .f32⟩ : BufTy).Contents (Elt Ideal)) :
    Cert.ReferenceIdeal.Read.val_main_v8 x0 x1 x2 = Cert.Mixture.outRe x0 x1 x2 := by
  funext i
  rw [eq_ix3 i]
  exact val_v8_at x0 x1 x2 (i 0) (i 1) (i 2)

/-- The reference's second result is the imaginary part of the mixture. -/
theorem val_v11_eq_outIm (x0 x1 : (⟨S16x1024x768, .f32⟩ : BufTy).Contents (Elt Ideal)) (x2 : (⟨S16x1024, .f32⟩ : BufTy).Contents (Elt Ideal)) :
    Cert.ReferenceIdeal.Read.val_main_v11 x0 x1 x2 = Cert.Mixture.outIm x0 x1 x2 := by
  funext i
  rw [eq_ix3 i]
  exact val_v11_at x0 x1 x2 (i 0) (i 1) (i 2)

end Cert.ReferenceIdeal.RefMixture

end
-- ==== Proof.lean ====
/-
  The certificate of the mixture kernel against its reference.

  Inputs: a real part `re` and an imaginary part `im`, each 16 × 1024 × 768, and weights `w`, 16 × 1024.  Both programs
  return the real and the imaginary part of `ρ[b] = Σ_s w[b,s] · φ_s ⊗ conj(φ_s)`, `φ_s = re[b,s,·] + i·im[b,s,·]`
  (the two functions of Proof/Mixture.lean).

  * The kernel tiles each 768 × 768 result into four 384 × 384 blocks per batch and computes a block from the two column
    panels of `re` and `im` it needs; it rounds its matrix operands to bf16 before multiplying, which at the ideal
    instance is the identity, and accumulates from a zero matrix, which adds nothing.  Its frame (both instances) is
    Proof/FrameIdeal.lean and Proof/FrameBits.lean; what a block holds, entry by entry, is Proof/PayloadIdeal.lean; that
    the blocks written back make the two whole arrays of Proof/Mixture.lean is Proof/ValueIdeal.lean.
  * The reference forms `w·re` and `w·im` and takes four batched matrix products; entry by entry these are the same four
    weighted sums, with the factors of every term in the same order (Proof/RefMixture.lean).  So the two sides are one
    function of the inputs and no law of the extended reals — in particular nothing that would need the inputs finite —
    is used: the precondition is never opened.
  * The ideal pass rewrote nothing in the kernel, so its idealization is its own text read at the ideal instance.
-/
import proofs.«171447_j54906861912216_1_alg».proof.Defs
import proofs.«171447_j54906861912216_1_alg».proof.Proof.Gen.Kernel
import proofs.«171447_j54906861912216_1_alg».proof.Proof.Gen.Kernel.Skeleton
import proofs.«171447_j54906861912216_1_alg».proof.Proof.Gen.Kernel.Launch
import proofs.«171447_j54906861912216_1_alg».proof.Proof.Gen.Kernel.Points
import proofs.«171447_j54906861912216_1_alg».proof.Proof.Gen.KernelIdeal
import proofs.«171447_j54906861912216_1_alg».proof.Proof.Gen.KernelIdeal.Skeleton
import proofs.«171447_j54906861912216_1_alg».proof.Proof.Gen.KernelIdeal.Launch
import proofs.«171447_j54906861912216_1_alg».proof.Proof.Gen.KernelIdeal.Points
import proofs.«171447_j54906861912216_1_alg».proof.Proof.Gen.ReferenceIdeal
import proofs.«171447_j54906861912216_1_alg».proof.Proof.Gen.Pre_finite_inputs
import proofs.«171447_j54906861912216_1_alg».proof.Proof.Gen.ReferenceIdeal.Run
import proofs.«171447_j54906861912216_1_alg».proof.Proof.Gen.ReferenceIdeal.Read
import proofs.«171447_j54906861912216_1_alg».proof.Proof.Mixture
import proofs.«171447_j54906861912216_1_alg».proof.Proof.FrameBits
import proofs.«171447_j54906861912216_1_alg».proof.Proof.FrameIdeal
import proofs.«171447_j54906861912216_1_alg».proof.Proof.ValueIdeal
import proofs.«171447_j54906861912216_1_alg».proof.Proof.RefMixture
import Idealize.ShloMosaic.Adequacy
import Idealize.ShloMosaic.Init

noncomputable section

namespace Cert.Proof

open Idealize.ShloMosaic Idealize.ShloMosaic.TcCoe Idealize.SL.Sem

/-- The word-level kernel runs to the end and leaves its three arguments as launched. -/
theorem frame_k : Cert.frame_Kernel := fun m ρ _ => Cert.Kernel.Shared.frame m ρ

/-- So does the kernel read at the ideal instance. -/
theorem frame_ki : Cert.frame_KernelIdeal := fun m ρ _ => Cert.KernelIdeal.Shared.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- Both programs end with the real part at `Mixture.outRe` and the imaginary part at `Mixture.outIm` of the inputs: the
    kernel because each block written back is that function's block, the reference because each of its stages, read at
    an index, is the same weighted sum. -/
theorem algebraic : Cert.algebraic_KernelIdeal_ReferenceIdeal := by
  intro m ρ m' ρ' _ hagree
  refine ⟨fun c => Cert.Mixture.outRe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Mixture.outIm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_, ?_⟩) (Cert.KernelIdeal.Shared.run_main (F := Ideal) m ρ)
    · exact ((h c).1 5).trans (Cert.KernelIdeal.SharedValue.final_re m c)
    · exact ((h c).1 6).trans (Cert.KernelIdeal.SharedValue.final_im m c)
    · exact ((h c).1 0).trans (((Cert.KernelIdeal.Shared.dats m 0 c).arrAt_in 0 rfl _).trans
        ((Cert.KernelIdeal.Shared.A_eq m c 0).trans (Cert.KernelIdeal.Shared.V_main_arg0 m c)))
    · exact ((h c).1 1).trans (((Cert.KernelIdeal.Shared.dats m 0 c).arrAt_in 1 rfl _).trans
        ((Cert.KernelIdeal.Shared.A_eq m c 1).trans (Cert.KernelIdeal.Shared.V_main_arg1 m c)))
    · exact ((h c).2 Cert.KernelIdeal.main_arg2 (Pipeline.mem_restRefs_of Cert.KernelIdeal.main_arg2 rfl (by decide))).trans
        (Cert.KernelIdeal.Shared.V_main_arg2 m c)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v8_eq, Cert.ReferenceIdeal.RefMixture.val_v8_eq_outRe,
        (hagree c).1, (hagree c).2.1, (hagree c).2.2]
    · rw [(h c).2.1, Cert.ReferenceIdeal.Read.val_main_v11_eq, Cert.ReferenceIdeal.RefMixture.val_v11_eq_outIm,
        (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
